-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg6 : IVec S600000 32) (main_v31 : IVec S_ 1) (main_v32 : IVec S600000 32) : IVec S_ 1 :=
  let main_v33 : IVec S600000 1 := cmpi .sge main_arg6 main_v32
  let main_c_13 : IVec S_ 1 := constantI S_ 1 1#1
  let main_v34 : IVec S_ 1 := (fun x v => Host.reduce IntOp.andi x v reducesTo_S600000_S_d0 h_S_) main_v33 main_c_13
  let main_v35 : IVec S_ 1 := andi main_v31 main_v34
  let main_c_14 : IVec S_ 32 := constantI S_ 32 50000#32
  let main_v36 : IVec S600000 32 := broadcastInDim S600000 ![] bcast_S_S600000 main_c_14
  let main_v37 : IVec S600000 1 := cmpi .slt main_arg6 main_v36
  let main_c_15 : IVec S_ 1 := constantI S_ 1 1#1
  let main_v38 : IVec S_ 1 := (fun x v => Host.reduce IntOp.andi x v reducesTo_S600000_S_d0 h_S_) main_v37 main_c_15
  let main_v39 : IVec S_ 1 := andi main_v35 main_v38
  main_v39

def fn_part1 {F : FTy → Type} [FloatOps F] (main_arg4 : FVec F S1 .f32) (main_arg5 : IVec S600000 32) (main_arg6 : IVec S600000 32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294917296#32
  let main_v24 : IVec S600000 32 := broadcastInDim S600000 ![] bcast_S_S600000 main_c_8
  let main_v25 : IVec S600000 1 := cmpi .sge main_arg5 main_v24
  let main_c_9 : IVec S_ 1 := constantI S_ 1 1#1
  let main_v26 : IVec S_ 1 := (fun x v => Host.reduce IntOp.andi x v reducesTo_S600000_S_d0 h_S_) main_v25 main_c_9
  let main_v27 : IVec S_ 1 := andi main_v23 main_v26
  let main_c_10 : IVec S_ 32 := constantI S_ 32 50000#32
  let main_v28 : IVec S600000 32 := broadcastInDim S600000 ![] bcast_S_S600000 main_c_10
  let main_v29 : IVec S600000 1 := cmpi .slt main_arg5 main_v28
  let main_c_11 : IVec S_ 1 := constantI S_ 1 1#1
  let main_v30 : IVec S_ 1 := (fun x v => Host.reduce IntOp.andi x v reducesTo_S600000_S_d0 h_S_) main_v29 main_c_11
  let main_v31 : IVec S_ 1 := andi main_v27 main_v30
  let main_c_12 : IVec S_ 32 := constantI S_ 32 4294917296#32
  let main_v32 : IVec S600000 32 := broadcastInDim S600000 ![] bcast_S_S600000 main_c_12
  fn_part2 (F := F) main_arg6 main_v31 main_v32

def fn {F : FTy → Type} [FloatOps F] (main_arg0 : FVec F S50000x128 .f32) (main_arg1 : FVec F S256x128 .f32) (main_arg2 : FVec F S128 .f32) (main_arg3 : FVec F S128x1 .f32) (main_arg4 : FVec F S1 .f32) (main_arg5 : IVec S600000 32) (main_arg6 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_v13 main_v16
-- ==== Kernel.lean ====
abbrev S50000x128 : Shape := ⟨2, ![50000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S600000 : Shape := ⟨1, ![600000]⟩
abbrev S_ : Shape := ⟨0, ![]⟩
abbrev S602112 : Shape := ⟨1, ![602112]⟩
abbrev S602112x1 : Shape := ⟨2, ![602112, 1]⟩
abbrev S1x1 : Shape := ⟨2, ![1, 1]⟩
abbrev S602112x128 : Shape := ⟨2, ![602112, 128]⟩
abbrev S4096x128 : Shape := ⟨2, ![4096, 128]⟩
abbrev S4096x1 : Shape := ⟨2, ![4096, 1]⟩
abbrev S128x128 : Shape := ⟨2, ![128, 128]⟩
abbrev S1x128 : Shape := ⟨2, ![1, 128]⟩

abbrev nBuf : Space → Nat
  | .hbm => 62
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S600000, .i32⟩
  | .hbm, ⟨6, _⟩ => ⟨S600000, .i32⟩
  | .hbm, ⟨7, _⟩ => ⟨S_, .i32⟩
  | .hbm, ⟨8, _⟩ => ⟨S_, .i32⟩
  | .hbm, ⟨9, _⟩ => ⟨S602112, .i32⟩
  | .hbm, ⟨10, _⟩ => ⟨S_, .i32⟩
  | .hbm, ⟨11, _⟩ => ⟨S_, .i32⟩
  | .hbm, ⟨12, _⟩ => ⟨S602112, .i32⟩
  | .hbm, ⟨13, _⟩ => ⟨S_, .i32⟩
  | .hbm, ⟨14, _⟩ => ⟨S602112, .i32⟩
  | .hbm, ⟨15, _⟩ => ⟨S602112, .i1⟩
  | .hbm, ⟨16, _⟩ => ⟨S_, .i32⟩
  | .hbm, ⟨17, _⟩ => ⟨S602112, .i32⟩
  | .hbm, ⟨18, _⟩ => ⟨S602112, .i32⟩
  | .hbm, ⟨19, _⟩ => ⟨S602112, .i32⟩
  | .hbm, ⟨20, _⟩ => ⟨S602112x1, .i32⟩
  | .hbm, ⟨21, _⟩ => ⟨S1, .i32⟩
  | .hbm, ⟨22, _⟩ => ⟨S_, .i32⟩
  | .hbm, ⟨23, _⟩ => ⟨S602112x1, .i32⟩
  | .hbm, ⟨24, _⟩ => ⟨S602112x1, .i1⟩
  | .hbm, ⟨25, _⟩ => ⟨S1x1, .i32⟩
  | .hbm, ⟨26, _⟩ => ⟨S602112x1, .i32⟩
  | .hbm, ⟨27, _⟩ => ⟨S602112x1, .i1⟩
  | .hbm, ⟨28, _⟩ => ⟨S602112x1, .i1⟩
  | .hbm, ⟨29, _⟩ => ⟨S_, .i1⟩
  | .hbm, ⟨30, _⟩ => ⟨S602112, .i1⟩
  | .hbm, ⟨31, _⟩ => ⟨S602112x128, .f32⟩
  | .hbm, ⟨32, _⟩ => ⟨S602112x128, .i1⟩
  | .hbm, ⟨33, _⟩ => ⟨S_, .f32⟩
  | .hbm, ⟨34, _⟩ => ⟨S602112x128, .f32⟩
  | .hbm, ⟨35, _⟩ => ⟨S602112x128, .f32⟩
  | .hbm, ⟨36, _⟩ => ⟨S_, .i32⟩
  | .hbm, ⟨37, _⟩ => ⟨S602112, .i32⟩
  | .hbm, ⟨38, _⟩ => ⟨S602112, .i1⟩
  | .hbm, ⟨39, _⟩ => ⟨S_, .i32⟩
  | .hbm, ⟨40, _⟩ => ⟨S602112, .i32⟩
  | .hbm, ⟨41, _⟩ => ⟨S602112, .i32⟩
  | .hbm, ⟨42, _⟩ => ⟨S602112, .i32⟩
  | .hbm, ⟨43, _⟩ => ⟨S602112x1, .i32⟩
  | .hbm, ⟨44, _⟩ => ⟨S1, .i32⟩
  | .hbm, ⟨45, _⟩ => ⟨S_, .i32⟩
  | .hbm, ⟨46, _⟩ => ⟨S602112x1, .i32⟩
  | .hbm, ⟨47, _⟩ => ⟨S602112x1, .i1⟩
  | .hbm, ⟨48, _⟩ => ⟨S1x1, .i32⟩
  | .hbm, ⟨49, _⟩ => ⟨S602112x1, .i32⟩
  | .hbm, ⟨50, _⟩ => ⟨S602112x1, .i1⟩
  | .hbm, ⟨51, _⟩ => ⟨S602112x1, .i1⟩
  | .hbm, ⟨52, _⟩ => ⟨S_, .i1⟩
  | .hbm, ⟨53, _⟩ => ⟨S602112, .i1⟩
  | .hbm, ⟨54, _⟩ => ⟨S602112x128, .f32⟩
  | .hbm, ⟨55, _⟩ => ⟨S602112x128, .i1⟩
  | .hbm, ⟨56, _⟩ => ⟨S_, .f32⟩
  | .hbm, ⟨57, _⟩ => ⟨S602112x128, .f32⟩
  | .hbm, ⟨58, _⟩ => ⟨S602112x128, .f32⟩
  | .hbm, ⟨59, _⟩ => ⟨S602112x1, .f32⟩
  | .hbm, ⟨60, _⟩ => ⟨S602112, .f32⟩
  | .hbm, ⟨61, _⟩ => ⟨S600000, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S256x128, .f32⟩
  | .local _ .vmem, ⟨5, _⟩ => ⟨S128, .f32⟩
  | .local _ .vmem, ⟨6, _⟩ => ⟨S128x1, .f32⟩
  | .local _ .vmem, ⟨7, _⟩ => ⟨S1, .f32⟩
  | .local _ .vmem, ⟨8, _⟩ => ⟨S4096x1, .f32⟩
  | .local _ .vmem, ⟨9, _⟩ => ⟨S4096x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_call2_c : Ref sig .tc := ⟨.hbm, 13, rfl⟩
abbrev main_call2_v0 : Ref sig .tc := ⟨.hbm, 14, rfl⟩
abbrev main_call2_v1 : Ref sig .tc := ⟨.hbm, 15, rfl⟩
abbrev main_call2_c_0 : Ref sig .tc := ⟨.hbm, 16, rfl⟩
abbrev main_call2_v2 : Ref sig .tc := ⟨.hbm, 17, rfl⟩
abbrev main_call2_v3 : Ref sig .tc := ⟨.hbm, 18, rfl⟩
abbrev main_call2_v4 : Ref sig .tc := ⟨.hbm, 19, rfl⟩
abbrev main_call2_v5 : Ref sig .tc := ⟨.hbm, 20, rfl⟩
abbrev main_call2_c_1 : Ref sig .tc := ⟨.hbm, 21, rfl⟩
abbrev main_call2_c_2 : Ref sig .tc := ⟨.hbm, 22, rfl⟩
abbrev main_call2_v6 : Ref sig .tc := ⟨.hbm, 23, rfl⟩
abbrev main_call2_v7 : Ref sig .tc := ⟨.hbm, 24, rfl⟩
abbrev main_call2_v8 : Ref sig .tc := ⟨.hbm, 25, rfl⟩
abbrev main_call2_v9 : Ref sig .tc := ⟨.hbm, 26, rfl⟩
abbrev main_call2_v10 : Ref sig .tc := ⟨.hbm, 27, rfl⟩
abbrev main_call2_v11 : Ref sig .tc := ⟨.hbm, 28, rfl⟩
abbrev main_call2_c_3 : Ref sig .tc := ⟨.hbm, 29, rfl⟩
abbrev main_call2_v12 : Ref sig .tc := ⟨.hbm, 30, rfl⟩
abbrev main_call2_v13 : Ref sig .tc := ⟨.hbm, 31, rfl⟩
abbrev main_call2_v14 : Ref sig .tc := ⟨.hbm, 32, rfl⟩
abbrev main_call2_cst : Ref sig .tc := ⟨.hbm, 33, rfl⟩
abbrev main_call2_v15 : Ref sig .tc := ⟨.hbm, 34, rfl⟩
abbrev main_v2 : Ref sig .tc := ⟨.hbm, 35, rfl⟩
abbrev main_call3_c : Ref sig .tc := ⟨.hbm, 36, rfl⟩
abbrev main_call3_v0 : Ref sig .tc := ⟨.hbm, 37, rfl⟩
abbrev main_call3_v1 : Ref sig .tc := ⟨.hbm, 38, rfl⟩
abbrev main_call3_c_0 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_c_1 : Ref sig .tc := ⟨.hbm, 44, rfl⟩
abbrev main_call3_c_2 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_c_3 : Ref sig .tc := ⟨.hbm, 52, rfl⟩
abbrev main_call3_v12 : Ref sig .tc := ⟨.hbm, 53, rfl⟩
abbrev main_call3_v13 : Ref sig .tc := ⟨.hbm, 54, rfl⟩
abbrev main_call3_v14 : Ref sig .tc := ⟨.hbm, 55, rfl⟩
abbrev main_call3_cst : Ref sig .tc := ⟨.hbm, 56, rfl⟩
abbrev main_call3_v15 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S600000_S602112_021120 : S600000.Pads (![0] : Fin 1 → Nat) ![2112] ![0] S602112
  h_S_ : 0 < S_.numel
  bcast_S_S602112 : S_.BroadcastsInDim S602112 (![] : Fin 0 → Fin S602112.rank)
  bcast_S602112_S602112x1_0 : S602112.BroadcastsInDim S602112x1 (![0] : Fin 1 → Fin S602112x1.rank)
  bcast_S_S602112x1 : S_.BroadcastsInDim S602112x1 (![] : Fin 0 → Fin S602112x1.rank)
  bcast_S1_S1x1_1 : S1.BroadcastsInDim S1x1 (![1] : Fin 1 → Fin S1x1.rank)
  bcast_S1x1_S602112x1_0_1 : S1x1.BroadcastsInDim S602112x1 (![0, 1] : Fin 2 → Fin S602112x1.rank)
  reducesTo_S602112x1_S602112_d1 : S602112x1.ReducesTo [1] S602112
  bcast_S602112_S602112x128_0 : S602112.BroadcastsInDim S602112x128 (![0] : Fin 1 → Fin S602112x128.rank)
  bcast_S_S602112x128 : S_.BroadcastsInDim S602112x128 (![] : Fin 0 → Fin S602112x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S602112x1_S602112 : S602112x1.ShapeCasts S602112
  slices_S602112_S600000_0 : S602112.Slices ![0] S600000
  gather_S50000x128_S602112x1_S602112x128_1_0_n_n_0_1_1128_wf : GatherDims.WF S50000x128 S602112x1 S602112x128 [1] [0] [] [0] [] 1 ![1, 128]
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S602112x128.size a
  hwx0_0 : ∀ i : grid0.Coords, EltTy.bits .f32 = 32 ∨ (Rect.block (s := S602112x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S602112x128.size a
  hwx0_1 : ∀ i : grid0.Coords, EltTy.bits .f32 = 32 ∨ (Rect.block (s := S602112x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x1.size a ≤ S602112x1.size a
  hwx0_6 : ∀ i : grid0.Coords, EltTy.bits .f32 = 32 ∨ (Rect.block (s := S602112x1) S4096x1.size (cc0_transform_6 i) (hinb0_6 i)).WholeWords (EltTy.packing .f32)

variable [Facts₀]

def gather_S50000x128_S602112x1_S602112x128_1_0_n_n_0_1_1128 : GatherDims S50000x128 S602112x1 S602112x128 where
  offsetDims := [1]
  collapsedSliceDims := [0]
  operandBatchingDims := []
  startIndicesBatchingDims := []
  startIndexMap := [0]
  indexVectorDim := 1
  sliceSizes := ![1, 128]
  wf := gather_S50000x128_S602112x1_S602112x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S4096x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x128 : Shape := ⟨2, ![1, 128]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S600000, .i32⟩
  | .hbm, ⟨6, _⟩ => ⟨S600000, .i32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S600000x256, .f32⟩
  | .hbm, ⟨26, _⟩ => ⟨S600000x128, .f32⟩
  | .hbm, ⟨27, _⟩ => ⟨S1x128, .f32⟩
  | .hbm, ⟨28, _⟩ => ⟨S600000x128, .f32⟩
  | .hbm, ⟨29, _⟩ => ⟨S600000x128, .f32⟩
  | .hbm, ⟨30, _⟩ => ⟨S_, .f32⟩
  | .hbm, ⟨31, _⟩ => ⟨S600000x128, .f32⟩
  | .hbm, ⟨32, _⟩ => ⟨S600000x128, .f32⟩
  | .hbm, ⟨33, _⟩ => ⟨S600000x1, .f32⟩
  | .hbm, ⟨34, _⟩ => ⟨S1x1, .f32⟩
  | .hbm, ⟨35, _⟩ => ⟨S600000x1, .f32⟩
  | .hbm, ⟨36, _⟩ => ⟨S600000x1, .f32⟩
  | .hbm, ⟨37, _⟩ => ⟨S600000x1, .f32⟩
  | .hbm, ⟨38, _⟩ => ⟨S600000x1, .f32⟩
  | .hbm, ⟨39, _⟩ => ⟨S_, .f32⟩
  | .hbm, ⟨40, _⟩ => ⟨S600000x1, .f32⟩
  | .hbm, ⟨41, _⟩ => ⟨S600000x1, .f32⟩
  | .hbm, ⟨42, _⟩ => ⟨S_, .f32⟩
  | .hbm, ⟨43, _⟩ => ⟨S600000x1, .f32⟩
  | .hbm, ⟨44, _⟩ => ⟨S600000x1, .f32⟩
  | .hbm, ⟨45, _⟩ => ⟨S600000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x1 : S_.BroadcastsInDim S600000x1 (![] : Fin 0 → Fin S600000x1.rank)
  shapeCasts_S600000x1_S600000 : S600000x1.ShapeCasts S600000
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x1_S600000x1_1_0_0_1_n_n_wf : DotDims.WF S600000x128 S128x1 S600000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf

class Facts : Prop extends Facts₀ where

variable [Facts]
-- ==== Proof.Spec.lean ====
/-
  The score of one edge, as a function of the two end points' feature rows and the four parameter arrays,
  over the extended reals:

    hidden j = max (Σₖ a k · W1[k, j]  +  Σₖ b k · W1[128 + k, j]  +  b1[j]) 0        (j < 128)
    score    = logistic (Σⱼ hidden j · W2[j, 0]  +  b2[0])

  where `a` is the source node's row of features and `b` the destination's (128 numbers each). The first
  layer's weight matrix has 256 rows: its upper half meets the source features, its lower half the
  destination features, so the layer applied to the two rows laid side by side is the sum of the two
  halves' products (`sum_halves`: a sum over 256 indices is the sum over the first 128 plus the sum over
  the last 128; sums of extended reals commute and associate, so no finiteness is needed for it).
-/
import Idealize.ShloMosaic.Lib.ValueIdx
import Idealize.ShloMosaic.PureOps.Ideal.Laws

noncomputable section

open scoped BigOperators

namespace Cert.EdgeScore

open Idealize.ShloMosaic Idealize.ShloMosaic.ValueIdx

/-- Row `k` of the upper half of the first weight matrix. -/
abbrev upper (k : Fin 128) : Fin 256 := ⟨k.val, by have := k.isLt; omega⟩
/-- Row `128 + k`: row `k` of its lower half. -/
abbrev lower (k : Fin 128) : Fin 256 := ⟨128 + k.val, by have := k.isLt; omega⟩

/-- Hidden unit `j` of an edge whose source node has features `a` and whose destination node has features `b`. -/
def hidden (W1 : (⟨2, ![256, 128]⟩ : Shape).Idx → EReal) (b1 : (⟨1, ![128]⟩ : Shape).Idx → EReal)
    (a b : Fin 128 → EReal) (j : Fin 128) : EReal :=
  max (((∑ k : Fin 128, a k * W1 (ix2 (upper k) j)) + ∑ k : Fin 128, b k * W1 (ix2 (lower k) j)) + b1 (ix1 j)) 0

/-- The edge's score. -/
def score (W1 : (⟨2, ![256, 128]⟩ : Shape).Idx → EReal) (b1 : (⟨1, ![128]⟩ : Shape).Idx → EReal)
    (W2 : (⟨2, ![128, 1]⟩ : Shape).Idx → EReal) (b2 : (⟨1, ![1]⟩ : Shape).Idx → EReal)
    (a b : Fin 128 → EReal) : EReal :=
  Ideal.logistic ((∑ j : Fin 128, hidden W1 b1 a b j * W2 (ix2 j (0 : Fin 1))) + b2 (ix1 (0 : Fin 1)))

/-- A sum over 256 indices is the sum over the first 128 plus the sum over the last 128. -/
theorem sum_halves (f : Fin 256 → EReal) :
    ∑ k : Fin 256, f k = (∑ k : Fin 128, f (upper k)) + ∑ k : Fin 128, f (lower k) :=
  Fin.sum_univ_add (a := 128) (b := 128) f

/-- The word of the float one denotes the number one. -/
theorem ofBits_one : Ideal.ofBits .f32 0x3F800000#32 = (1 : EReal) := by
  simp [Ideal.ofBits, Ideal.ieee, -EReal.coe_mul]
  norm_num

end Cert.EdgeScore

end
-- ==== Proof.Rows.lean ====
/-
  The row a signed 32-bit index word selects in a table of 50000 rows, as both programs compute it:
  a negative word has 50000 added (an index counted from the end), and the gather then reads the result
  signed and clamps it into 0 … 49999 (`rowOf`). For a word in the valid range −50000 ≤ s < 50000 the
  wrapped word already lies in 0 … 49999 (`wrap_ge`, `wrap_le`), which is what the two range tests of the
  filling gather ask.
-/
import Idealize.ShloMosaic.Lib.Affine
import Idealize.ShloMosaic.Lib.ValueIdx

noncomputable section

namespace Cert.EdgeScore

open Idealize.ShloMosaic

/-- An index word counted from the end when negative: `s + 50000` if `s < 0`, else `s`. -/
def wrap (s : BitVec 32) : BitVec 32 :=
  Scalar.select (IntOp.cmpi .slt s 0#32) (IntOp.addi s 50000#32) s

/-- The table row the index word selects: the wrapped word read signed and clamped into the table. -/
def rowOf (s : BitVec 32) : Fin 50000 := ⟨min (wrap s).toInt.toNat (50000 - 1), by omega⟩

/-- The word is in the valid range of an index into 50000 rows, counted from either end. -/
def InRange (s : BitVec 32) : Prop :=
  IntOp.cmpi .sge s 4294917296#32 = 1#1 ∧ IntOp.cmpi .slt s 50000#32 = 1#1

theorem toInt_neg50000 : (4294917296#32 : BitVec 32).toInt = -50000 := by decide
theorem toInt_50000 : (50000#32 : BitVec 32).toInt = 50000 := by decide
theorem toInt_49999 : (49999#32 : BitVec 32).toInt = 49999 := by decide
theorem toInt_zero32 : (0#32 : BitVec 32).toInt = 0 := by decide

/-- The wrapped word, read signed, for a word in the valid range. -/
theorem toInt_wrap {s : BitVec 32} (h : InRange s) : 0 ≤ (wrap s).toInt ∧ (wrap s).toInt ≤ 49999 := by
  obtain ⟨hlo, hhi⟩ := h
  rw [IntOp.cmpi_sge, toInt_neg50000] at hlo
  rw [IntOp.cmpi_slt, toInt_50000] at hhi
  by_cases hneg : IntOp.cmpi .slt s 0#32 = 1#1
  · rw [show wrap s = IntOp.addi s 50000#32 from if_pos hneg]
    rw [IntOp.cmpi_slt, toInt_zero32] at hneg
    rw [IntOp.addi, BitVec.toInt_add, toInt_50000, Int.bmod_eq_of_le (by omega) (by omega)]
    omega
  · rw [show wrap s = s from if_neg hneg]
    rw [IntOp.cmpi_slt, toInt_zero32] at hneg
    omega

/-- The lower range test of the filling gather passes. -/
theorem wrap_ge {s : BitVec 32} (h : InRange s) : IntOp.cmpi .sge (wrap s) 0#32 = 1#1 := by
  rw [IntOp.cmpi_sge, toInt_zero32]; exact (toInt_wrap h).1

/-- The upper range test of the filling gather passes. -/
theorem wrap_le {s : BitVec 32} (h : InRange s) : IntOp.cmpi .sle (wrap s) 49999#32 = 1#1 := by
  rw [IntOp.cmpi_sle, toInt_49999]; exact (toInt_wrap h).2

end Cert.EdgeScore

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.RefValue.lean ====
/-
  The reference program's result at edge `e` is the edge's score (Spec.lean) of the feature rows its two
  index words select.

  Read back one operation at a time: the result is the quotient 1 / (1 + exp (−z)), which is the logistic
  function of `z` as the extended reals define it; `z` is the second layer, a sum over the 128 hidden units
  plus the bias; a hidden unit is the maximum with zero of the first layer, a sum over the 256 columns of the
  two feature rows laid side by side plus the bias; a column below 128 of that row is the source row's
  entry and a column 128 + k the destination row's entry k (the concatenation read piece by piece), so the
  sum over 256 splits into the two halves (`sum_halves`); and a gathered row is the table's row at the
  wrapped, clamped index word (`rowOf`).
-/
import proofs.«413405_j37177236914498_1_alg».proof.Proof.Gen.ReferenceIdeal.Run
import proofs.«413405_j37177236914498_1_alg».proof.Proof.Gen.ReferenceIdeal.Read
import proofs.«413405_j37177236914498_1_alg».proof.Proof.Spec
import proofs.«413405_j37177236914498_1_alg».proof.Proof.Rows
import proofs.«413405_j37177236914498_1_alg».proof.Proof.LibRows
import Idealize.ShloMosaic.Lib.Pipeline.Value

noncomputable section

open scoped BigOperators

namespace Cert.ReferenceIdeal.RefValue

open Cert.ReferenceIdeal Cert.ReferenceIdeal.Gen Cert.ReferenceIdeal.Read Cert.EdgeScore
open Idealize.ShloMosaic Idealize.ShloMosaic.ValueIdx

/-- The start-index column built from the source index words: entry `e` is the wrapped word. -/
theorem start_src (x5 : (⟨S600000, .i32⟩ : BufTy).Contents (Elt Ideal)) (e : Fin 600000) :
    val_main_v5 (F := Ideal) x5 (ix2 e (0 : Fin 1)) = wrap (x5 (ix1 e)) := by
  have hi : idx_main_v5 (ix2 e (0 : Fin 1)) = ix1 e := funext fun a => by
    match a with
    | ⟨0, _⟩ => rfl
  rw [val_main_v5_apply, hi, val_main_v4_apply, val_main_v1_apply, val_main_v3_apply, val_main_v0_apply,
    val_main_v2_apply, val_main_c_apply, val_main_c_0_apply]
  rfl

/-- The same for the destination index words. -/
theorem start_dst (x6 : (⟨S600000, .i32⟩ : BufTy).Contents (Elt Ideal)) (e : Fin 600000) :
    val_main_v12 (F := Ideal) x6 (ix2 e (0 : Fin 1)) = wrap (x6 (ix1 e)) := by
  have hi : idx_main_v12 (ix2 e (0 : Fin 1)) = ix1 e := funext fun a => by
    match a with
    | ⟨0, _⟩ => rfl
  rw [val_main_v12_apply, hi, val_main_v11_apply, val_main_v8_apply, val_main_v10_apply, val_main_v7_apply,
    val_main_v9_apply, val_main_c_1_apply, val_main_c_2_apply]
  rfl

/-- The gathered source rows: row `e` is the table's row at the source index word. -/
theorem rows_src (x0 : (⟨S50000x128, .f32⟩ : BufTy).Contents (Elt Ideal)) (x5 : (⟨S600000, .i32⟩ : BufTy).Contents (Elt Ideal))
    (e : Fin 600000) (k : Fin 128) :
    val_main_v6 (F := Ideal) x0 x5 (ix2 e k) = x0 (ix2 (rowOf (x5 (ix1 e))) k) := by
  unfold val_main_v6
  refine (rowGather_apply (N := 50000) (E := 600000) (C := 128) (by decide)
    gather_S50000x128_S600000x1_S600000x128_1_0_n_n_0_1_1128_wf x0 (val_main_v5 (F := Ideal) x5) e k).trans ?_
  refine congrArg x0 (congrArg (fun r : Fin 50000 => ix2 r k) (Fin.ext ?_))
  show min (val_main_v5 (F := Ideal) x5 (ix2 e (0 : Fin 1))).toInt.toNat (50000 - 1) = min (wrap (x5 (ix1 e))).toInt.toNat (50000 - 1)
  rw [start_src]

/-- The gathered destination rows. -/
theorem rows_dst (x0 : (⟨S50000x128, .f32⟩ : BufTy).Contents (Elt Ideal)) (x6 : (⟨S600000, .i32⟩ : BufTy).Contents (Elt Ideal))
    (e : Fin 600000) (k : Fin 128) :
    val_main_v13 (F := Ideal) x0 x6 (ix2 e k) = x0 (ix2 (rowOf (x6 (ix1 e))) k) := by
  unfold val_main_v13
  refine (rowGather_apply (N := 50000) (E := 600000) (C := 128) (by decide)
    gather_S50000x128_S600000x1_S600000x128_1_0_n_n_0_1_1128_wf x0 (val_main_v12 (F := Ideal) x6) e k).trans ?_
  refine congrArg x0 (congrArg (fun r : Fin 50000 => ix2 r k) (Fin.ext ?_))
  show min (val_main_v12 (F := Ideal) x6 (ix2 e (0 : Fin 1))).toInt.toNat (50000 - 1) = min (wrap (x6 (ix1 e))).toInt.toNat (50000 - 1)
  rw [start_dst]

/-- The two rows laid side by side, at a column of the first half: the source row's entry. -/
theorem cat_upper (x0 : (⟨S50000x128, .f32⟩ : BufTy).Contents (Elt Ideal)) (x5 x6 : (⟨S600000, .i32⟩ : BufTy).Contents (Elt Ideal))
    (e : Fin 600000) (k : Fin 128) :
    val_main_v14 (F := Ideal) x0 x5 x6 (ix2 e (upper k)) = x0 (ix2 (rowOf (x5 (ix1 e))) k) := by
  unfold val_main_v14
  refine (concatenate_apply_piece (1 : Fin S600000x256.rank) [⟨S600000x128, val_main_v6 (F := Ideal) x0 x5⟩, ⟨S600000x128, val_main_v13 (F := Ideal) x0 x6⟩] concatenates_S600000x128_S600000x128_S600000x256_d1 (ix2 e (upper k)) 0 (by show (0 : Nat) < 2; decide) S600000x128
    (val_main_v6 (F := Ideal) x0 x5) rfl rfl 0 rfl (ix2 e k) ?_ ?_).trans (rows_src x0 x5 e k)
  · intro b hb
    match b with
    | ⟨0, _⟩ => rfl
    | ⟨1, _⟩ => exact absurd rfl hb
  · show 0 + k.val = k.val
    omega

/-- At a column of the second half: the destination row's entry. -/
theorem cat_lower (x0 : (⟨S50000x128, .f32⟩ : BufTy).Contents (Elt Ideal)) (x5 x6 : (⟨S600000, .i32⟩ : BufTy).Contents (Elt Ideal))
    (e : Fin 600000) (k : Fin 128) :
    val_main_v14 (F := Ideal) x0 x5 x6 (ix2 e (lower k)) = x0 (ix2 (rowOf (x6 (ix1 e))) k) := by
  unfold val_main_v14
  refine (concatenate_apply_piece (1 : Fin S600000x256.rank) [⟨S600000x128, val_main_v6 (F := Ideal) x0 x5⟩, ⟨S600000x128, val_main_v13 (F := Ideal) x0 x6⟩] concatenates_S600000x128_S600000x128_S600000x256_d1 (ix2 e (lower k)) 1 (by show (1 : Nat) < 2; decide) S600000x128
    (val_main_v13 (F := Ideal) x0 x6) rfl rfl 128 rfl (ix2 e k) ?_ ?_).trans (rows_dst x0 x6 e k)
  · intro b hb
    match b with
    | ⟨0, _⟩ => rfl
    | ⟨1, _⟩ => exact absurd rfl hb
  · show 128 + k.val = 128 + k.val
    rfl

/-- A hidden unit of the reference is the specification's. -/
theorem hidden_apply (x0 : (⟨S50000x128, .f32⟩ : BufTy).Contents (Elt Ideal)) (x1 : (⟨S256x128, .f32⟩ : BufTy).Contents (Elt Ideal))
    (x2 : (⟨S128, .f32⟩ : BufTy).Contents (Elt Ideal)) (x5 x6 : (⟨S600000, .i32⟩ : BufTy).Contents (Elt Ideal))
    (e : Fin 600000) (j : Fin 128) :
    val_main_v19 (F := Ideal) x0 x1 x2 x5 x6 (ix2 e j)
      = hidden x1 x2 (fun k => x0 (ix2 (rowOf (x5 (ix1 e))) k)) (fun k => x0 (ix2 (rowOf (x6 (ix1 e))) k)) j := by
  have hl : ∀ q : Fin 256, lidx_main_v15 (ix2 e j) q = ix2 e q := fun q => funext fun a => by
    match a with
    | ⟨0, _⟩ => rfl
    | ⟨1, _⟩ => rfl
  have hr : ∀ q : Fin 256, ridx_main_v15 (ix2 e j) q = ix2 q j := fun q => funext fun a => by
    match a with
    | ⟨0, _⟩ => rfl
    | ⟨1, _⟩ => rfl
  have hb : idx_main_v16 (idx_main_v17 (ix2 e j)) = ix1 j := funext fun a => by
    match a with
    | ⟨0, _⟩ => rfl
  rw [val_main_v19_apply, val_main_v18_apply, val_main_v15_apply, val_main_v17_apply, val_main_v16_apply,
    val_main_call0_v0_apply, val_main_call0_cst_apply, hb, sum_halves]
  simp only [hl, hr, cat_upper, cat_lower]
  unfold Cert.EdgeScore.hidden
  simp only [Ideal.maximumf_def, Ideal.addf_def, Ideal.ofBits_def, Ideal.ofBits_zero_f32]

/-- THE REFERENCE AT EDGE `e`: the score of the two selected feature rows. -/
theorem result_apply (x0 : (⟨S50000x128, .f32⟩ : BufTy).Contents (Elt Ideal)) (x1 : (⟨S256x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (x5 x6 : (⟨S600000, .i32⟩ : BufTy).Contents (Elt Ideal)) (e : Fin 600000) :
    val_main_v30 (F := Ideal) x0 x1 x2 x3 x4 x5 x6 (ix1 e)
      = score x1 x2 x3 x4 (fun k => x0 (ix2 (rowOf (x5 (ix1 e))) k)) (fun k => x0 (ix2 (rowOf (x6 (ix1 e))) k)) := by
  have hi : idx_main_v30 (ix1 e) = ix2 e (0 : Fin 1) := funext fun a => by
    match a with
    | ⟨0, _⟩ => exact Fin.ext (Nat.div_one _)
    | ⟨1, _⟩ => rfl
  have hl : ∀ q : Fin 128, lidx_main_v20 (ix2 e (0 : Fin 1)) q = ix2 e q := fun q => funext fun a => by
    match a with
    | ⟨0, _⟩ => rfl
    | ⟨1, _⟩ => rfl
  have hr : ∀ q : Fin 128, ridx_main_v20 (ix2 e (0 : Fin 1)) q = ix2 q (0 : Fin 1) := fun q => funext fun a => by
    match a with
    | ⟨0, _⟩ => rfl
    | ⟨1, _⟩ => rfl
  have hb : idx_main_v21 (idx_main_v22 (ix2 e (0 : Fin 1))) = ix1 (0 : Fin 1) := funext fun a => by
    match a with
    | ⟨0, _⟩ => rfl
  rw [val_main_v30_apply, hi, val_main_v29_apply, val_main_v28_apply, val_main_cst_3_apply, val_main_v27_apply,
    val_main_v26_apply, val_main_cst_apply, val_main_v25_apply, val_main_v24_apply, val_main_v23_apply,
    val_main_v20_apply, val_main_v22_apply, val_main_v21_apply, hb]
  simp only [hl, hr, hidden_apply]
  unfold Cert.EdgeScore.score Ideal.logistic
  simp only [Ideal.hostDivf_def, Ideal.addf_def, Ideal.hostUnary_exp_def, Ideal.hostNegf_def, Ideal.negf_def,
    Ideal.ofBits_def, ofBits_one]

end Cert.ReferenceIdeal.RefValue

end
-- ==== Proof.KernelPayload.lean ====
/-
  One grid point of the kernel, as mathematics: what its body leaves in row `p` of its output block.

  A grid point handles 4096 consecutive edges. Its body multiplies the block of source rows by the upper half
  of the first weight matrix and the block of destination rows by the lower half, adds the two products and
  the bias, takes the maximum with zero, multiplies by the second weight column, adds the second bias and
  applies the logistic function. Over the extended reals a change of float format is the identity and a
  matrix product into a zero accumulator is the plain sum over the contracted index (`layer1_apply`,
  `layer2_apply`), so row `p` of the block the point writes is the score (Spec.lean) of rows `p` of its two
  input blocks (`payload_apply`, `block_point`). Also here: the index maps of the seven windows decided over
  the 147 grid points (`idx_facts`, `idx_onto`).
-/
import proofs.«413405_j37177236914498_1_alg».proof.Proof.Gen.KernelIdeal.Frame
import proofs.«413405_j37177236914498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Block

open Cert.KernelIdeal Cert.KernelIdeal.Gen Cert.EdgeScore
open Idealize.ShloMosaic Idealize.ShloMosaic.TcCoe Idealize.SL.Sem Idealize.ShloMosaic.ValueIdx
open Idealize.ShloMosaic.Pipeline (Dat)

/-! ## The two matrix products at an index -/

theorem lhsA_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsA_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsA_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsA_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The first layer's product of a block of rows with one half of the weight matrix, at row `p` and unit `j`:
    the sum over the 128 features. -/
theorem layer1_apply (l : FVec Ideal S4096x128 .bf16) (r : FVec Ideal S128x128 .bf16) (p : Fin 4096) (j : Fin 128) :
    matmul dot_S4096x128_S128x128_S4096x128_1_0_0_1_n_n none l r (constant (F := Ideal) S4096x128 .f32 0x00000000#32) (ix2 p j)
      = ∑ k : Fin 128, l (ix2 p k) * r (ix2 k j) := by
  refine (Ideal.matmul_constant_zero_apply dot_S4096x128_S128x128_S4096x128_1_0_0_1_n_n none l r (ix2 p j)).trans ?_
  rw [← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p j) ((ValueIdx.contrEquiv1 dot_S4096x128_S128x128_S4096x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S4096x128_S128x128_S4096x128_1_0_0_1_n_n.rhsIdx (ix2 p j) ((ValueIdx.contrEquiv1 dot_S4096x128_S128x128_S4096x128_1_0_0_1_n_n 128 rfl rfl).symm k) = ix2 k j := funext fun a => Fin.ext (by
    match a with
    | ⟨0, _⟩ => exact (rhsA_0 _ _).trans hk
    | ⟨1, _⟩ => exact rhsA_1 _ _)
  rw [el, er]

theorem lhsB_0 (i : S4096x1.Idx) (q : dot_S4096x128_S128x1_S4096x1_1_0_0_1_n_n.contr.Idx) :
    (dot_S4096x128_S128x1_S4096x1_1_0_0_1_n_n.lhsIdx i q 0).val = (i 0).val := by
  unfold DotDims.lhsIdx
  rw [dif_neg (show ¬(0 : Fin S4096x128.rank) ∈ dot_S4096x128_S128x1_S4096x1_1_0_0_1_n_n.lhsBatch by decide), dif_pos (show (0 : Fin S4096x128.rank) ∈ dot_S4096x128_S128x1_S4096x1_1_0_0_1_n_n.lhsNonContracting by decide)]
  rfl
theorem lhsB_1 (i : S4096x1.Idx) (q : dot_S4096x128_S128x1_S4096x1_1_0_0_1_n_n.contr.Idx) :
    (dot_S4096x128_S128x1_S4096x1_1_0_0_1_n_n.lhsIdx i q 1).val = (q ⟨0, by decide⟩).val :=
  dot_S4096x128_S128x1_S4096x1_1_0_0_1_n_n.lhsIdx_val_of_single rfl i q
theorem rhsB_0 (i : S4096x1.Idx) (q : dot_S4096x128_S128x1_S4096x1_1_0_0_1_n_n.contr.Idx) :
    (dot_S4096x128_S128x1_S4096x1_1_0_0_1_n_n.rhsIdx i q 0).val = (q ⟨0, by decide⟩).val :=
  dot_S4096x128_S128x1_S4096x1_1_0_0_1_n_n.rhsIdx_val_of_single rfl i q
theorem rhsB_1 (i : S4096x1.Idx) (q : dot_S4096x128_S128x1_S4096x1_1_0_0_1_n_n.contr.Idx) :
    (dot_S4096x128_S128x1_S4096x1_1_0_0_1_n_n.rhsIdx i q 1).val = (i 1).val := by
  unfold DotDims.rhsIdx
  rw [dif_neg (show ¬(1 : Fin S128x1.rank) ∈ dot_S4096x128_S128x1_S4096x1_1_0_0_1_n_n.rhsBatch by decide), dif_pos (show (1 : Fin S128x1.rank) ∈ dot_S4096x128_S128x1_S4096x1_1_0_0_1_n_n.rhsNonContracting by decide)]
  rfl

/-- The second layer's product of the block of hidden rows with the weight column, at row `p`: the sum over the
    128 hidden units. -/
theorem layer2_apply (l : FVec Ideal S4096x128 .bf16) (r : FVec Ideal S128x1 .bf16) (p : Fin 4096) :
    matmul dot_S4096x128_S128x1_S4096x1_1_0_0_1_n_n none l r (constant (F := Ideal) S4096x1 .f32 0x00000000#32) (ix2 p (0 : Fin 1))
      = ∑ j : Fin 128, l (ix2 p j) * r (ix2 j (0 : Fin 1)) := by
  refine (Ideal.matmul_constant_zero_apply dot_S4096x128_S128x1_S4096x1_1_0_0_1_n_n none l r (ix2 p (0 : Fin 1))).trans ?_
  rw [← Equiv.sum_comp (ValueIdx.contrEquiv1 dot_S4096x128_S128x1_S4096x1_1_0_0_1_n_n 128 rfl rfl).symm]
  refine Finset.sum_congr rfl fun k _ => ?_
  have hk := ValueIdx.contrEquiv1_symm_val dot_S4096x128_S128x1_S4096x1_1_0_0_1_n_n 128 rfl rfl k
  have el : dot_S4096x128_S128x1_S4096x1_1_0_0_1_n_n.lhsIdx (ix2 p (0 : Fin 1)) ((ValueIdx.contrEquiv1 dot_S4096x128_S128x1_S4096x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S4096x128_S128x1_S4096x1_1_0_0_1_n_n.rhsIdx (ix2 p (0 : Fin 1)) ((ValueIdx.contrEquiv1 dot_S4096x128_S128x1_S4096x1_1_0_0_1_n_n 128 rfl rfl).symm k) = ix2 k (0 : Fin 1) := funext fun a => Fin.ext (by
    match a with
    | ⟨0, _⟩ => exact (rhsB_0 _ _).trans hk
    | ⟨1, _⟩ => exact rhsB_1 _ _)
  rw [el, er]

/-! ## The body's payload at a row -/

/-- The first bias, cast to a row and broadcast down the block, at `(p, j)`: entry `j`. -/
theorem bias1_apply (bb : Vec Ideal S128 .f32) (p : Fin 4096) (j : Fin 128) :
    broadcastTo S4096x128 (shapeCast S1x128 bb shapeCasts_S128_S1x128) broadcasts_S1x128_S4096x128 (ix2 p j) = bb (ix1 j) :=
  (broadcastTo_1b_ab_apply _ broadcasts_S1x128_S4096x128 p j).trans (shapeCast_a_1a_apply bb shapeCasts_S128_S1x128 (0 : Fin 1) j)

/-- The second bias, cast to a 1 × 1 array and broadcast down the column, at row `p`: its one entry. -/
theorem bias2_apply (b2 : Vec Ideal S1 .f32) (p : Fin 4096) :
    broadcastTo S4096x1 (shapeCast S1x1 b2 shapeCasts_S1_S1x1) broadcasts_S1x1_S4096x1 (ix2 p (0 : Fin 1)) = b2 (ix1 (0 : Fin 1)) :=
  (broadcastTo_1b_ab_apply _ broadcasts_S1x1_S4096x1 p (0 : Fin 1)).trans (shapeCast_a_1a_apply b2 shapeCasts_S1_S1x1 (0 : Fin 1) (0 : Fin 1))

/-- THE PAYLOAD AT ROW `p`: the logistic function of the second layer over the hidden units, each the maximum
    with zero of the first layer over the two blocks' rows `p`. -/
theorem payload_apply (x0 x1 : Vec Ideal S4096x128 .f32) (wa wb : Vec Ideal S128x128 .f32) (bb : Vec Ideal S128 .f32)
    (w2 : Vec Ideal S128x1 .f32) (b2 : Vec Ideal S1 .f32) (p : Fin 4096) :
    k0_pay1 (F := Ideal) x0 x1 wa wb bb w2 b2 (ix2 p (0 : Fin 1))
      = Ideal.logistic ((∑ j : Fin 128, max (((∑ k : Fin 128, x0 (ix2 p k) * wa (ix2 k j))
          + ∑ k : Fin 128, x1 (ix2 p k) * wb (ix2 k j)) + bb (ix1 j)) 0 * w2 (ix2 j (0 : Fin 1))) + b2 (ix1 (0 : Fin 1))) := by
  unfold k0_pay1
  refine (congrArg Ideal.logistic (congrArg₂ (· + ·) (layer2_apply _ _ p) (bias2_apply b2 p))).trans ?_
  refine congrArg Ideal.logistic (congrArg (· + b2 (ix1 (0 : Fin 1))) (Finset.sum_congr rfl fun j _ => ?_))
  refine congrArg (· * w2 (ix2 j (0 : Fin 1))) ?_
  refine (congrArg₂ max (congrArg₂ (· + ·) (congrArg₂ (· + ·) (layer1_apply _ _ p j) (layer1_apply _ _ p j)) (bias1_apply bb p j))
    (Ideal.ofBits_zero_f32)).trans ?_
  simp only [truncf_apply, shapeCast_self]

/-! ## One grid point's block as rows of one function of the arrays -/

theorem hz2 : (![0, 0] : Fin 2 → Nat) = fun _ => 0 := funext fun a => by fin_cases a <;> rfl
theorem hz1 : (![0] : Fin 1 → Nat) = fun _ => 0 := funext fun a => by fin_cases a <;> rfl

/-- The weight matrix's upper half, loaded through the rectangle at row offset 0. -/
theorem ld_upper (x2 : Vec Ideal S256x128 .f32) (k j : Fin 128) : View.ld x2 r0_1 (ix2 k j) = x2 (ix2 (upper k) j) := by
  show x2 (r0_1.emb (ix2 k j)) = _
  refine congrArg x2 (funext fun a => Fin.ext ?_)
  match a with
  | ⟨0, _⟩ => simp only [Rect.emb_apply, Rect.off_unit, Rect.stride_unit, Nat.one_mul]; show 0 + k.val = k.val; omega
  | ⟨1, _⟩ => simp only [Rect.emb_apply, Rect.off_unit, Rect.stride_unit, Nat.one_mul]; show 0 + j.val = j.val; omega

/-- Its lower half, loaded through the rectangle at row offset 128. -/
theorem ld_lower (x2 : Vec Ideal S256x128 .f32) (k j : Fin 128) : View.ld x2 r0_2 (ix2 k j) = x2 (ix2 (lower k) j) := by
  show x2 (r0_2.emb (ix2 k j)) = _
  refine congrArg x2 (funext fun a => Fin.ext ?_)
  match a with
  | ⟨0, _⟩ => simp only [Rect.emb_apply, Rect.off_unit, Rect.stride_unit, Nat.one_mul]; show 128 + k.val = 128 + k.val; rfl
  | ⟨1, _⟩ => simp only [Rect.emb_apply, Rect.off_unit, Rect.stride_unit, Nat.one_mul]; show 0 + j.val = j.val; omega

/-- Row `r` of the result as a function of the two gathered feature arrays and the parameters. -/
def rowScore (xs hd : S602112x128.Idx → EReal) (W1 : S256x128.Idx → EReal) (b1 : S128.Idx → EReal)
    (W2 : S128x1.Idx → EReal) (b2 : S1.Idx → EReal) (r : Fin 602112) : EReal :=
  score W1 b1 W2 b2 (fun k => xs (ix2 r k)) (fun k => hd (ix2 r k))

/-- The row an index of the [602112, 1] result array lies in. -/
abbrev rowIx (i : S602112x1.Idx) : Fin 602112 := ⟨(i 0).val, idx2_lt0 i⟩

/-- The whole result array as one function of the arrays. -/
def scores (xs hd : S602112x128.Idx → EReal) (W1 : S256x128.Idx → EReal) (b1 : S128.Idx → EReal)
    (W2 : S128x1.Idx → EReal) (b2 : S1.Idx → EReal) : S602112x1.Idx → EReal :=
  fun i => rowScore xs hd W1 b1 W2 b2 (rowIx i)

/-- What the body leaves at index `y` of its output block, when row `(y 0)` of its two input blocks is row `r` of
    the gathered arrays and the parameter blocks are the parameter arrays: row `r`'s score. -/
theorem block_point (x0 x1 : Vec Ideal S4096x128 .f32) (x2 : Vec Ideal S256x128 .f32) (x3 : Vec Ideal S128 .f32)
    (x4 : Vec Ideal S128x1 .f32) (x5 : Vec Ideal S1 .f32)
    (xs hd : S602112x128.Idx → EReal) (W1 : S256x128.Idx → EReal) (b1 : S128.Idx → EReal)
    (W2 : S128x1.Idx → EReal) (b2 : S1.Idx → EReal) (y : S4096x1.Idx) (r : Fin 602112)
    (h0 : ∀ k : Fin 128, x0 (ix2 (⟨(y 0).val, idx2_lt0 y⟩ : Fin 4096) k) = xs (ix2 r k))
    (h1 : ∀ k : Fin 128, x1 (ix2 (⟨(y 0).val, idx2_lt0 y⟩ : Fin 4096) k) = hd (ix2 r k))
    (h2 : ∀ (a : Fin 256) (b : Fin 128), x2 (ix2 a b) = W1 (ix2 a b))
    (h3 : ∀ j : Fin 128, x3 (ix1 j) = b1 (ix1 j))
    (h4 : ∀ j : Fin 128, x4 (ix2 j (0 : Fin 1)) = W2 (ix2 j (0 : Fin 1)))
    (h5 : x5 (ix1 (0 : Fin 1)) = b2 (ix1 (0 : Fin 1))) :
    out0_6 x0 x1 x2 x3 x4 x5 y = rowScore xs hd W1 b1 W2 b2 r := by
  obtain ⟨p, q, rfl⟩ : ∃ (p : Fin 4096) (q : Fin 1), y = ix2 p q := ⟨y 0, y 1, eq_ix2 y⟩
  obtain rfl : q = 0 := Subsingleton.elim _ _
  unfold out0_6
  rw [View.canon_unit_zero hz2]
  simp only [View.ld_unit_zero (S := S4096x128) hz2, View.ld_unit_zero (S := S128) hz1,
    View.ld_unit_zero (S := S128x1) hz2, View.ld_unit_zero (S := S1) hz1]
  rw [payload_apply]
  unfold rowScore Cert.EdgeScore.score Cert.EdgeScore.hidden
  have h0' : ∀ k : Fin 128, x0 (ix2 p k) = xs (ix2 r k) := h0
  have h1' : ∀ k : Fin 128, x1 (ix2 p k) = hd (ix2 r k) := h1
  simp only [h3, h4, h5, h0', h1']
  refine congrArg Ideal.logistic (congrArg (· + b2 (ix1 (0 : Fin 1))) (Finset.sum_congr rfl fun j _ => ?_))
  refine congrArg (fun z => max z 0 * W2 (ix2 j (0 : Fin 1))) ?_
  refine congrArg (· + b1 (ix1 j)) ?_
  refine congrArg₂ (· + ·) (Finset.sum_congr rfl fun k _ => ?_) (Finset.sum_congr rfl fun k _ => ?_)
  · rw [ld_upper x2 k j, h2]
  · rw [ld_lower x2 k j, h2]

/-! ## The index maps, decided over the 147 grid points -/

/-- Both edge windows move with the output window along the rows and stay at column block 0; the four
    parameter windows stay at block 0; the output's block index is the point's number, at most 146. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 146 :=
  (by decide +kernel : ∀ t : Fin grid0.N, _)

/-- Every one of the 147 row blocks of the result is some point's. -/
theorem idx_onto : ∀ q : Fin 147, ∃ t : Fin cfg0.N, win0_6.index t = ![q.val, 0] :=
  (by decide +kernel : ∀ q : Fin 147, ∃ t : Fin grid0.N, win0_6.index t = ![q.val, 0])

end Cert.KernelIdeal.Block

end
-- ==== Proof.KernelBlock.lean ====
/-
  What the kernel leaves in its result array, read off the frame run: every row `r` of the [602112, 1] array
  holds the score (Spec.lean) of row `r` of the gathered source features and row `r` of the gathered
  destination features.

  Block `t` of each edge array is rows 4096·t … 4096·t + 4095 and the parameter arrays are staged whole
  (`read_xs` … `read_b2`), so what point `t` writes back is block `t` of ONE function of the arrays
  (`flushed_eq`, by KernelPayload.lean's `block_point`); the 147 blocks tile the 602112 rows (`cover`), hence
  the array after the run is that function (`final`).
-/
import proofs.«413405_j37177236914498_1_alg».proof.Proof.Gen.KernelIdeal.Frame
import proofs.«413405_j37177236914498_1_alg».proof.Proof.Spec
import proofs.«413405_j37177236914498_1_alg».proof.Proof.KernelPayload
import Idealize.ShloMosaic.Lib.Pipeline.Value
import Idealize.ShloMosaic.Lib.ValueIdx

set_option maxRecDepth 16384

noncomputable section

open scoped BigOperators

namespace Cert.KernelIdeal.Block

open Cert.KernelIdeal Cert.KernelIdeal.Gen Cert.EdgeScore
open Idealize.ShloMosaic Idealize.ShloMosaic.TcCoe Idealize.SL.Sem Idealize.ShloMosaic.ValueIdx
open Idealize.ShloMosaic.Pipeline (Dat)

/-! ## From the blocks to the array -/

variable (m : (ℓ : Loc nD τ sig) → Buf (Elt Ideal) ℓ) (ρ : Dev nD → PrngReg)

/-- The arrays as the region finds them, each at its literal type. -/
abbrev xsArr (c : Dev nD) : S602112x128.Idx → EReal := V m c main_v2
abbrev hdArr (c : Dev nD) : S602112x128.Idx → EReal := V m c main_v3
abbrev w1Arr (c : Dev nD) : S256x128.Idx → EReal := V m c main_arg1
abbrev b1Arr (c : Dev nD) : S128.Idx → EReal := V m c main_arg2
abbrev w2Arr (c : Dev nD) : S128x1.Idx → EReal := V m c main_arg3
abbrev b2Arr (c : Dev nD) : S1.Idx → EReal := V m c main_arg4

/-- The result array as the function of the arrays the region finds. -/
abbrev finalScores (c : Dev nD) : S602112x1.Idx → EReal :=
  scores (xsArr m c) (hdArr m c) (w1Arr m c) (b1Arr m c) (w2Arr m c) (b2Arr m c)

/-! Each window's block at point `t`, read off its array: an edge window's block is rows 4096·t … of the
    gathered array, a parameter window's block is the parameter array. -/

theorem read_xs (c : Dev nD) (t : Fin cfg0.N) (p : Fin 4096) (k : Fin 128) (r : Fin 602112)
    (hr : r.val = win0_6.index t (0 : Fin 2) * 4096 + p.val) :
    (iblk m c 0 t : Vec Ideal S4096x128 .f32) (ix2 p k) = xsArr m c (ix2 r k) := by
  obtain ⟨e0, e1, -⟩ := idx_facts t
  unfold iblk
  rw [View.read_apply]
  simp only [cast_eq]
  show V m c (Pipeline.arrRef spec0 0) _ = V m c main_v2 _
  generalize V m c = W
  show W main_v2 _ = W main_v2 _
  refine congrArg (W main_v2) (funext fun a => Fin.ext ?_)
  match a with
  | ⟨0, _⟩ => show win0_0.index t (0 : Fin 2) * 4096 + 1 * p.val = r.val; omega
  | ⟨1, _⟩ => show win0_0.index t (1 : Fin 2) * 128 + 1 * k.val = k.val; omega

theorem read_hd (c : Dev nD) (t : Fin cfg0.N) (p : Fin 4096) (k : Fin 128) (r : Fin 602112)
    (hr : r.val = win0_6.index t (0 : Fin 2) * 4096 + p.val) :
    (iblk m c 1 t : Vec Ideal S4096x128 .f32) (ix2 p k) = hdArr m c (ix2 r k) := by
  obtain ⟨-, -, e2, e3, -⟩ := idx_facts t
  unfold iblk
  rw [View.read_apply]
  simp only [cast_eq]
  show V m c (Pipeline.arrRef spec0 1) _ = V m c main_v3 _
  generalize V m c = W
  show W main_v3 _ = W main_v3 _
  refine congrArg (W main_v3) (funext fun a => Fin.ext ?_)
  match a with
  | ⟨0, _⟩ => show win0_1.index t (0 : Fin 2) * 4096 + 1 * p.val = r.val; omega
  | ⟨1, _⟩ => show win0_1.index t (1 : Fin 2) * 128 + 1 * k.val = k.val; omega

theorem read_w1 (c : Dev nD) (t : Fin cfg0.N) (p : Fin 256) (k : Fin 128) :
    (iblk m c 2 t : Vec Ideal S256x128 .f32) (ix2 p k) = w1Arr m c (ix2 p k) := by
  obtain ⟨-, -, -, -, e4, e5, -⟩ := idx_facts t
  unfold iblk
  rw [View.read_apply]
  simp only [cast_eq]
  show V m c (Pipeline.arrRef spec0 2) _ = V m c main_arg1 _
  generalize V m c = W
  show W main_arg1 _ = W main_arg1 _
  refine congrArg (W main_arg1) (funext fun a => Fin.ext ?_)
  match a with
  | ⟨0, _⟩ => show win0_2.index t (0 : Fin 2) * 256 + 1 * p.val = p.val; omega
  | ⟨1, _⟩ => show win0_2.index t (1 : Fin 2) * 128 + 1 * k.val = k.val; omega

theorem read_b1 (c : Dev nD) (t : Fin cfg0.N) (j : Fin 128) :
    (iblk m c 3 t : Vec Ideal S128 .f32) (ix1 j) = b1Arr m c (ix1 j) := by
  obtain ⟨-, -, -, -, -, -, e6, -⟩ := idx_facts t
  unfold iblk
  rw [View.read_apply]
  simp only [cast_eq]
  show V m c (Pipeline.arrRef spec0 3) _ = V m c main_arg2 _
  generalize V m c = W
  show W main_arg2 _ = W main_arg2 _
  refine congrArg (W main_arg2) (funext fun a => Fin.ext ?_)
  match a with
  | ⟨0, _⟩ => show win0_3.index t (0 : Fin 1) * 128 + 1 * j.val = j.val; omega

theorem read_w2 (c : Dev nD) (t : Fin cfg0.N) (j : Fin 128) :
    (iblk m c 4 t : Vec Ideal S128x1 .f32) (ix2 j (0 : Fin 1)) = w2Arr m c (ix2 j (0 : Fin 1)) := by
  obtain ⟨-, -, -, -, -, -, -, e7, e8, -⟩ := idx_facts t
  unfold iblk
  rw [View.read_apply]
  simp only [cast_eq]
  show V m c (Pipeline.arrRef spec0 4) _ = V m c main_arg3 _
  generalize V m c = W
  show W main_arg3 _ = W main_arg3 _
  refine congrArg (W main_arg3) (funext fun a => Fin.ext ?_)
  match a with
  | ⟨0, _⟩ => show win0_4.index t (0 : Fin 2) * 128 + 1 * j.val = j.val; omega
  | ⟨1, _⟩ => show win0_4.index t (1 : Fin 2) * 1 + 1 * 0 = 0; omega

theorem read_b2 (c : Dev nD) (t : Fin cfg0.N)  :
    (iblk m c 5 t : Vec Ideal S1 .f32) (ix1 (0 : Fin 1)) = b2Arr m c (ix1 (0 : Fin 1)) := by
  obtain ⟨-, -, -, -, -, -, -, -, -, e9, -⟩ := idx_facts t
  unfold iblk
  rw [View.read_apply]
  simp only [cast_eq]
  show V m c (Pipeline.arrRef spec0 5) _ = V m c main_arg4 _
  generalize V m c = W
  show W main_arg4 _ = W main_arg4 _
  refine congrArg (W main_arg4) (funext fun a => Fin.ext ?_)
  match a with
  | ⟨0, _⟩ => show win0_5.index t (0 : Fin 1) * 1 + 1 * 0 = 0; omega

set_option maxHeartbeats 1000000 in
/-- WHAT POINT `t` WRITES BACK is block `t` of that function. -/
theorem flushed_eq (c : Dev nD) (t : Fin cfg0.N) :
    (dats m 0 c).flushed 6 t = ((cfg0.win 6).blk t).view.read (Elt Ideal) (finalScores m c) := by
  show (cfg0.win 6).cut (grid0.coords t) ((dats m 0 c).after 6 t) = _
  rw [after0_6]
  funext y
  rw [View.read_apply]
  simp only [cast_eq]
  refine block_point (iblk m c 0 t) (iblk m c 1 t) (iblk m c 2 t) (iblk m c 3 t) (iblk m c 4 t) (iblk m c 5 t)
    (xsArr m c) (hdArr m c) (w1Arr m c) (b1Arr m c) (w2Arr m c) (b2Arr m c)
    ((cfg0.win 6).xinj (grid0.coords t) y) (rowIx (((cfg0.win 6).blk t).view.emb y))
    (fun k => read_xs m c t _ k _ ?_) (fun k => read_hd m c t _ k _ ?_)
    (read_w1 m c t) (read_b1 m c t) (read_w2 m c t) (read_b2 m c t)
  · show win0_6.index t (0 : Fin 2) * 4096 + 1 * (y 0).val = win0_6.index t (0 : Fin 2) * 4096 + (y 0).val
    omega
  · show win0_6.index t (0 : Fin 2) * 4096 + 1 * (y 0).val = win0_6.index t (0 : Fin 2) * 4096 + (y 0).val
    omega

/-- An index of the result array is in point `t`'s block iff each coordinate is in the block's range. -/
theorem mem_blk (t : Fin cfg0.N) (i : S602112x1.Idx) :
    i ∈ ((cfg0.win 6).blk t).view.set ↔ ∀ a : Fin 2, win0_6.index t a * S4096x1.size a ≤ (i a).val ∧ (i a).val < win0_6.index t a * S4096x1.size a + S4096x1.size a := by
  show i ∈ ((View.whole main_v4).slice (win0_6.rect t)).set ↔ _
  rw [View.set_slice_whole, Rect.mem_set_unit]
  exact Iff.rfl

/-- The 147 blocks of 4096 rows tile the 602112 rows: row `r` is in block `r / 4096`. -/
theorem cover (i : S602112x1.Idx) :
    ∃ t : Fin cfg0.N, (cfg0.win 6).flush t = true ∧ i ∈ ((cfg0.win 6).blk t).view.set := by
  have hi0 : (i 0).val < 602112 := (i 0).isLt
  have hi1 : (i 1).val < 1 := (i 1).isLt
  obtain ⟨t, ht⟩ := idx_onto ⟨(i 0).val / 4096, by omega⟩
  have q0 : win0_6.index t (0 : Fin 2) = (i 0).val / 4096 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 1 ≤ (i 1).val ∧ (i 1).val < win0_6.index t (1 : Fin 2) * 1 + 1; omega

/-- THE RESULT ARRAY AFTER THE RUN: every row at its score. -/
theorem final (c : Dev nD) : (dats m 0 c).arrAt 6 cfg0.N = finalScores m c :=
  (dats m 0 c).arrAt_eq_of_cover 6 (finalScores m c) (fun t _ => flushed_eq m c t) cover

end Cert.KernelIdeal.Block

end
-- ==== Proof.KernelHost.lean ====
/-
  The host operations around the kernel's one region, read at an index.

  BEFORE the region the program pads each list of 600000 index words with zeros to 602112 (147 blocks of
  4096) and gathers the feature table's rows at the padded words in "fill" mode: a negative word has 50000
  added; the gather reads the result signed and clamps it into the table; and a row whose wrapped word falls
  outside 0 … 49999 is replaced by a filler. For a word in the valid range the wrapped word lies inside the
  table (Rows.lean), both range tests pass, the filler is not taken, and row `r` of the gathered array is the
  table's row `rowOf` of the word (`takeFill_apply`); a position below 600000 of a padded list holds the
  list's own word (`padded_apply`).

  AFTER the region the [602112, 1] result is reshaped to [602112] and its first 600000 entries are kept:
  entry `e` of the program's result is row `e` of the region's result array (`tail_v6`, `tail_apply`).
-/
import proofs.«413405_j37177236914498_1_alg».proof.Proof.Gen.KernelIdeal.Frame
import proofs.«413405_j37177236914498_1_alg».proof.Proof.Rows
import proofs.«413405_j37177236914498_1_alg».proof.Proof.LibRows
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.HostSide

open Cert.KernelIdeal Cert.KernelIdeal.Gen Cert.EdgeScore
open Idealize.ShloMosaic Idealize.ShloMosaic.TcCoe Idealize.SL.Sem Idealize.ShloMosaic.ValueIdx
open Idealize.ShloMosaic.StableHlo

/-! ## A reduction by `and` of ones -/

/-- A reduce by `and` from 1 over operand entries that are all 1 (those that reduce into `j`) is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl]
  have key : ∀ (l : List s.Idx) (a : BitVec 1), a = 1#1 → (∀ i ∈ l, x i = 1#1) →
      l.foldl (fun r i => IntOp.andi r (x i)) a = 1#1 := by
    intro l
    induction l with
    | nil => intro a ha _; exact ha
    | cons b l ih =>
      intro a ha hl
      rw [List.foldl_cons]
      refine ih _ ?_ (fun i hi => hl i (List.mem_cons_of_mem _ hi))
      rw [ha, hl b List.mem_cons_self]; decide
  exact key _ _ hinit (fun i hi => hx i (of_decide_eq_true (List.mem_filter.1 hi).2))

/-! ## The host operations before the region, as pure functions -/

section Pure
variable {F : FTy → Type} [FloatOps F]

/-- The index list padded with zeros to a whole number of blocks. -/
def padded (s : IVec S600000 32) : IVec S602112 32 :=
  pad S602112 ![0] ![2112] ![0] s (id (constantI S_ 32 0#32)) pads_S600000_S602112_021120 h_S_

/-- The column of start indices: each word wrapped (50000 added when negative). -/
def startCol (idx : IVec S602112 32) : IVec S602112x1 32 :=
  broadcastInDim S602112x1 ![0] bcast_S602112_S602112x1_0
    (select (cmpi .slt idx (broadcastInDim S602112 ![] bcast_S_S602112 (constantI S_ 32 0#32)))
      (addi idx (broadcastInDim S602112 ![] bcast_S_S602112 (constantI S_ 32 50000#32))) idx)

/-- Per position, whether the wrapped word lies inside the table. -/
def inTable (idx : IVec S602112 32) : IVec S602112 1 :=
  Host.reduce IntOp.andi
    (andi (cmpi .sge (startCol idx) (broadcastInDim S602112x1 ![] bcast_S_S602112x1 (constantI S_ 32 0#32)))
      (cmpi .sle (startCol idx) (broadcastInDim S602112x1 ![0, 1] bcast_S1x1_S602112x1_0_1
        (broadcastInDim S1x1 ![1] bcast_S1_S1x1_1 (constantI S1 32 49999#32)))))
    (constantI S_ 1 1#1) reducesTo_S602112x1_S602112_d1 h_S_

/-- The filling gather: the table's rows at the wrapped, clamped words, a filler where the word is outside. -/
def takeFill (h : FVec F S50000x128 .f32) (idx : IVec S602112 32) : FVec F S602112x128 .f32 :=
  select (broadcastInDim S602112x128 ![0] bcast_S602112_S602112x128_0 (inTable idx))
    (Host.gather gather_S50000x128_S602112x1_S602112x128_1_0_n_n_0_1_1128 h (startCol idx))
    (broadcastInDim S602112x128 ![] bcast_S_S602112x128 (constant S_ .f32 0x7FC00000#32))

/-- A position below 600000 of the padded list holds the list's own word. -/
theorem padded_apply (s : IVec S600000 32) (e : Fin 600000) :
    padded s (ix1 (⟨e.val, by have := e.isLt; omega⟩ : Fin 602112)) = s (ix1 e) := by
  have he := e.isLt
  unfold padded pad
  rw [dif_pos (fun a => by
    match a with
    | ⟨0, _⟩ => show 0 ≤ e.val ∧ (e.val - 0) % (0 + 1) = 0 ∧ (e.val - 0) / (0 + 1) < 600000; omega)]
  refine congrArg s (funext fun a => Fin.ext ?_)
  match a with
  | ⟨0, _⟩ => show (e.val - 0) / (0 + 1) = e.val; omega

/-- The start column at a position: the wrapped word. -/
theorem startCol_apply (idx : IVec S602112 32) (i : S602112x1.Idx) :
    startCol idx i = wrap (idx (ix1 (⟨(i 0).val, idx2_lt0 i⟩ : Fin 602112))) := by
  unfold startCol
  refine (broadcastInDim_apply _ bcast_S602112_S602112x1_0 _ i (ix1 (⟨(i 0).val, idx2_lt0 i⟩ : Fin 602112)) (fun a => by
    match a with
    | ⟨0, _⟩ => show (i 0).val = if (602112 : Nat) = 1 then 0 else (i 0).val; rw [if_neg (by decide)])).trans ?_
  rfl

/-- Both range tests pass at a position whose word is in the valid range. -/
theorem inTable_apply (idx : IVec S602112 32) (r : Fin 602112) (hr : InRange (idx (ix1 r))) :
    inTable idx (ix1 r) = 1#1 := by
  unfold inTable
  refine reduce_andi_one _ _ _ _ _ rfl (fun i hi => ?_)
  have h0 : (i 0).val = r.val := by
    have := Shape.ReducesTo.drop_apply_val_of_eq reducesTo_S602112x1_S602112_d1 i 0 0
    rw [hi] at this
    exact this.symm
  have hrow : (⟨(i 0).val, idx2_lt0 i⟩ : Fin 602112) = r := Fin.ext h0
  show IntOp.andi (IntOp.cmpi .sge (startCol idx i) 0#32) (IntOp.cmpi .sle (startCol idx i) 49999#32) = 1#1
  rw [startCol_apply, hrow, wrap_ge hr, wrap_le hr]
  decide

/-- THE GATHERED ARRAY AT ROW `r`, for a word in the valid range: the table's row `rowOf` of the word. -/
theorem takeFill_apply (h : FVec Ideal S50000x128 .f32) (idx : IVec S602112 32) (r : Fin 602112) (k : Fin 128)
    (hr : InRange (idx (ix1 r))) :
    takeFill (F := Ideal) h idx (ix2 r k) = h (ix2 (rowOf (idx (ix1 r))) k) := by
  unfold takeFill
  show Scalar.select (broadcastInDim S602112x128 ![0] bcast_S602112_S602112x128_0 (inTable idx) (ix2 r k))
    (Host.gather gather_S50000x128_S602112x1_S602112x128_1_0_n_n_0_1_1128 h (startCol idx) (ix2 r k)) _ = _
  rw [broadcastInDim_apply _ bcast_S602112_S602112x128_0 (inTable idx) (ix2 r k) (ix1 r) (fun a => by
    match a with
    | ⟨0, _⟩ => show r.val = if (602112 : Nat) = 1 then 0 else r.val; rw [if_neg (by decide)]),
    inTable_apply idx r hr, select_one]
  refine (rowGather_apply (N := 50000) (E := 602112) (C := 128) (by decide)
    gather_S50000x128_S602112x1_S602112x128_1_0_n_n_0_1_1128_wf h (startCol idx) r k).trans ?_
  refine congrArg h (congrArg (fun q : Fin 50000 => ix2 q k) (Fin.ext ?_))
  show min (startCol idx (ix2 r (0 : Fin 1))).toInt.toNat (50000 - 1) = min (wrap (idx (ix1 r))).toInt.toNat (50000 - 1)
  rw [startCol_apply]

/-- The reshape and slice after the region, at entry `e`: row `e` of the region's result array. -/
theorem tail_apply (X : S602112x1.Idx → Elt F .f32) (e : Fin 600000) :
    extractStridedSlice S600000 ![0] (shapeCast S602112 X shapeCasts_S602112x1_S602112) slices_S602112_S600000_0 (ix1 e)
      = X (ix2 (⟨e.val, by have := e.isLt; omega⟩ : Fin 602112) (0 : Fin 1)) := by
  refine (extractStridedSlice_apply ![0] _ slices_S602112_S600000_0 (ix1 e)
    (ix1 (⟨e.val, by have := e.isLt; omega⟩ : Fin 602112)) (fun a => by
      match a with
      | ⟨0, _⟩ => show e.val = 0 + e.val; omega)).trans ?_
  exact shapeCast_apply X shapeCasts_S602112x1_S602112 _ _ (by
    rw [Shape.rowMajor_val_two, Shape.rowMajor_val_one]
    show e.val * 1 + 0 = e.val
    omega)

end Pure

/-! ## The arrays the region finds, and the program's result after it -/

section Arrays
variable {F : FTy → Type} [FloatOps F]
variable (m : (ℓ : Loc nD τ sig) → Buf (Elt F) ℓ)

set_option maxRecDepth 200000 in
/-- The gathered source rows as the region finds them. -/
theorem V_v2 (c : Dev nD) : (V m c main_v2 : S602112x128.Idx → Elt F .f32)
    = takeFill (m ((c : Thread nD τ).loc main_arg0)) (padded (m ((c : Thread nD τ).loc main_arg5))) := by
  dsimp only [V, V0]
  simp only [hostOps0, hostOps0_1, hostOps0_2, hostOps0_3, hostOps0_4, hostOps0_5, List.flatten_cons, List.flatten_nil,
    List.append_nil, List.cons_append, List.nil_append]
  after_results_simp
  simp only [cast_eq]
  rfl

set_option maxRecDepth 200000 in
/-- The gathered destination rows as the region finds them. -/
theorem V_v3 (c : Dev nD) : (V m c main_v3 : S602112x128.Idx → Elt F .f32)
    = takeFill (m ((c : Thread nD τ).loc main_arg0)) (padded (m ((c : Thread nD τ).loc main_arg6))) := by
  dsimp only [V, V0]
  simp only [hostOps0, hostOps0_1, hostOps0_2, hostOps0_3, hostOps0_4, hostOps0_5, List.flatten_cons, List.flatten_nil,
    List.append_nil, List.cons_append, List.nil_append]
  after_results_simp
  simp only [cast_eq]
  rfl

/-- The program's result after the lines that follow the region: the region's result array reshaped and cut. -/
theorem tail_v6 (c : Dev nD) :
    (Pipeline.afterTail₀ cfgs (dats m) 0 (V0 m) [hostOps1] c main_v6 : S600000.Idx → Elt F .f32)
      = extractStridedSlice S600000 ![0]
          (shapeCast S602112 ((dats m 0 c).arrAt 6 cfg0.N : S602112x1.Idx → Elt F .f32) shapeCasts_S602112x1_S602112)
          slices_S602112_S600000_0 := by
  unfold Pipeline.afterTail₀
  show StableHlo.after hostOps1 _ (Proc.devRef .tc main_v6) = _
  after_results
  rw [Pipeline.withArrays_arr spec0 launch0.win.arr_inj c _ _ 6]
  rfl

end Arrays

end Cert.KernelIdeal.HostSide

end
-- ==== Proof.PreRange.lean ====
/-
  What the precondition says of the two index lists: every index word lies in the valid range of an index
  into 50000 rows counted from either end, −50000 ≤ s < 50000.

  The precondition is a conjunction of nine "all entries satisfy …" tests, each a reduction by `and` from 1
  to a single bit, and the claim states that the conjunction is 1. A conjunction of bits that is 1 has every
  conjunct 1; a reduction by `and` that is 1 met only ones; and an entry of a comparison array that is 1 is
  the comparison of the two words at that entry. The last four tests are the two bounds on the source words
  and the two bounds on the destination words.
-/
import proofs.«413405_j37177236914498_1_alg».proof.Pre_finite_inputs
import proofs.«413405_j37177236914498_1_alg».proof.Proof.Gen.Pre_finite_inputs
import proofs.«413405_j37177236914498_1_alg».proof.Proof.Rows
import Idealize.ShloMosaic.Lib.ReduceAll
import Idealize.ShloMosaic.Lib.ValueIdx

noncomputable section

namespace Cert.Pre_finite_inputs.Range

open Cert.Pre_finite_inputs Cert.Pre_finite_inputs.Gen Cert.EdgeScore
open Idealize.ShloMosaic Idealize.ShloMosaic.ValueIdx

/-- The scalar shape has one index. -/
instance : Subsingleton S_.Idx := ⟨fun a b => funext fun d => d.elim0⟩

/-- Under the precondition every source and every destination index word is in the valid range. -/
theorem inRange_of_pre {F : FTy → Type} [FloatOps F] (h : FVec F S50000x128 .f32) (W1 : FVec F S256x128 .f32)
    (b1 : FVec F S128 .f32) (W2 : FVec F S128x1 .f32) (b2 : FVec F S1 .f32) (src dst : IVec S600000 32)
    (hp : fn (F := F) h W1 b1 W2 b2 src dst = fun _ => 1#1) (e : Fin 600000) :
    InRange (src (ix1 e)) ∧ InRange (dst (ix1 e)) := by
  have h0 := congrFun hp ix0
  dsimp only [fn, fn_part1, fn_part2] at h0
  obtain ⟨h1, hd_hi⟩ := IntOp.andi_eq_one.1 h0
  obtain ⟨h2, hd_lo⟩ := IntOp.andi_eq_one.1 h1
  obtain ⟨h3, hs_hi⟩ := IntOp.andi_eq_one.1 h2
  obtain ⟨_, hs_lo⟩ := IntOp.andi_eq_one.1 h3
  exact ⟨⟨Host.reduce_andi_all _ _ _ _ ix0 hs_lo (ix1 e), Host.reduce_andi_all _ _ _ _ ix0 hs_hi (ix1 e)⟩,
    ⟨Host.reduce_andi_all _ _ _ _ ix0 hd_lo (ix1 e), Host.reduce_andi_all _ _ _ _ ix0 hd_hi (ix1 e)⟩⟩

end Cert.Pre_finite_inputs.Range

end
-- ==== Proof.lean ====
/-
  A link predictor over a graph: for each of 600000 edges, the features of its source node and of its
  destination node (rows of a 50000 × 128 table, selected by two lists of index words) go through a
  two-layer perceptron — 256 → 128 with a maximum with zero, then 128 → 1 with the logistic function — and
  the result is the edge's score.

  The reference lays the two gathered rows side by side and multiplies by the whole 256 × 128 weight
  matrix. The kernel gathers the rows on the host (padding the lists to 147 blocks of 4096 edges), and on
  each block multiplies the source rows by the upper half of the weight matrix and the destination rows by
  the lower half and adds the two products: over the extended reals the two are the same sum, split at
  column 128 (Spec.lean `sum_halves`); a change of float format is the identity there, a matrix product
  is its plain sum, and the kernel's logistic operation is the reference's 1 / (1 + exp (−z)).

  The two programs differ only where an index word is outside −50000 ≤ s < 50000: there the reference's
  gather clamps the row while the kernel's fills the row with a filler. The claim is stated, and proved,
  under the precondition that every index word is in that range (PreRange.lean), which makes both range
  tests of the filling gather pass (Rows.lean, KernelHost.lean). No finiteness is used: the one law that
  joins the two sides is the splitting of a finite sum.

  Modules: Spec (the score and the splitting law), Rows (index words), LibRows (a row gather read at an
  index), RefValue (the reference at an edge), KernelBlock (the kernel's result array), KernelHost (the
  host operations around the region), PreRange (the precondition read back); the claims are assembled here.
-/
import proofs.«413405_j37177236914498_1_alg».proof.Defs
import proofs.«413405_j37177236914498_1_alg».proof.Proof.Gen.Kernel
import proofs.«413405_j37177236914498_1_alg».proof.Proof.Gen.Kernel.Skeleton
import proofs.«413405_j37177236914498_1_alg».proof.Proof.Gen.Kernel.Launch
import proofs.«413405_j37177236914498_1_alg».proof.Proof.Gen.Kernel.Points
import proofs.«413405_j37177236914498_1_alg».proof.Proof.Gen.Kernel.Frame
import proofs.«413405_j37177236914498_1_alg».proof.Proof.Gen.KernelIdeal
import proofs.«413405_j37177236914498_1_alg».proof.Proof.Gen.KernelIdeal.Skeleton
import proofs.«413405_j37177236914498_1_alg».proof.Proof.Gen.KernelIdeal.Launch
import proofs.«413405_j37177236914498_1_alg».proof.Proof.Gen.KernelIdeal.Points
import proofs.«413405_j37177236914498_1_alg».proof.Proof.Gen.KernelIdeal.Frame
import proofs.«413405_j37177236914498_1_alg».proof.Proof.Gen.ReferenceIdeal
import proofs.«413405_j37177236914498_1_alg».proof.Proof.Gen.ReferenceIdeal.Run
import proofs.«413405_j37177236914498_1_alg».proof.Proof.Gen.ReferenceIdeal.Read
import proofs.«413405_j37177236914498_1_alg».proof.Proof.Gen.Pre_finite_inputs
import proofs.«413405_j37177236914498_1_alg».proof.Proof.Spec
import proofs.«413405_j37177236914498_1_alg».proof.Proof.Rows
import proofs.«413405_j37177236914498_1_alg».proof.Proof.RefValue
import proofs.«413405_j37177236914498_1_alg».proof.Proof.KernelBlock
import proofs.«413405_j37177236914498_1_alg».proof.Proof.KernelHost
import proofs.«413405_j37177236914498_1_alg».proof.Proof.PreRange
import Idealize.ShloMosaic.Adequacy
import Idealize.ShloMosaic.Init

noncomputable section

namespace Cert.Proof

open Idealize.ShloMosaic Idealize.SL.Sem Idealize.ShloMosaic.ValueIdx Cert.EdgeScore

/-- THE RESULT both programs end with: entry `e` is the score of the feature rows the two index words at `e`
    select. -/
def edgeScores (h : (⟨2, ![50000, 128]⟩ : Shape).Idx → EReal) (W1 : (⟨2, ![256, 128]⟩ : Shape).Idx → EReal)
    (b1 : (⟨1, ![128]⟩ : Shape).Idx → EReal) (W2 : (⟨2, ![128, 1]⟩ : Shape).Idx → EReal)
    (b2 : (⟨1, ![1]⟩ : Shape).Idx → EReal) (src dst : (⟨1, ![600000]⟩ : Shape).Idx → BitVec 32) :
    (⟨1, ![600000]⟩ : Shape).Idx → EReal :=
  fun i => score W1 b1 W2 b2 (fun k => h (ix2 (rowOf (src i)) k)) (fun k => h (ix2 (rowOf (dst i)) k))

/-! ## The kernel -/

section Kernel
open Cert.KernelIdeal Cert.KernelIdeal.Gen Cert.KernelIdeal.Block Cert.KernelIdeal.HostSide

variable (m : (ℓ : Loc Cert.KernelIdeal.nD Cert.KernelIdeal.τ Cert.KernelIdeal.sig) → Buf (Elt Ideal) ℓ)

/-- Row `e` of the gathered source rows, for an edge of the list: the table's row at its source index word. -/
theorem xs_row (hpre : Cert.Pre_KernelIdeal m) (c : Dev Cert.KernelIdeal.nD) (e : Fin 600000) (k : Fin 128) :
    xsArr m c (ix2 (⟨e.val, by have := e.isLt; omega⟩ : Fin 602112) k)
      = (m ((c.tc : Thread Cert.KernelIdeal.nD Cert.KernelIdeal.τ).loc Cert.KernelIdeal.main_arg0) : (⟨2, ![50000, 128]⟩ : Shape).Idx → EReal)
          (ix2 (rowOf ((m ((c.tc : Thread Cert.KernelIdeal.nD Cert.KernelIdeal.τ).loc Cert.KernelIdeal.main_arg5) : (⟨1, ![600000]⟩ : Shape).Idx → BitVec 32) (ix1 e))) k) := by
  have hr := (Cert.Pre_finite_inputs.Range.inRange_of_pre _ _ _ _ _ _ _ (hpre c) e).1
  show (V m c main_v2 : S602112x128.Idx → EReal) _ = _
  rw [V_v2, takeFill_apply _ _ _ k (by rw [padded_apply]; exact hr), padded_apply]

/-- The same for the gathered destination rows. -/
theorem hd_row (hpre : Cert.Pre_KernelIdeal m) (c : Dev Cert.KernelIdeal.nD) (e : Fin 600000) (k : Fin 128) :
    hdArr m c (ix2 (⟨e.val, by have := e.isLt; omega⟩ : Fin 602112) k)
      = (m ((c.tc : Thread Cert.KernelIdeal.nD Cert.KernelIdeal.τ).loc Cert.KernelIdeal.main_arg0) : (⟨2, ![50000, 128]⟩ : Shape).Idx → EReal)
          (ix2 (rowOf ((m ((c.tc : Thread Cert.KernelIdeal.nD Cert.KernelIdeal.τ).loc Cert.KernelIdeal.main_arg6) : (⟨1, ![600000]⟩ : Shape).Idx → BitVec 32) (ix1 e))) k) := by
  have hr := (Cert.Pre_finite_inputs.Range.inRange_of_pre _ _ _ _ _ _ _ (hpre c) e).2
  show (V m c main_v3 : S602112x128.Idx → EReal) _ = _
  rw [V_v3, takeFill_apply _ _ _ k (by rw [padded_apply]; exact hr), padded_apply]

/-- Row `r` of the kernel's result array, spelt out: the score of rows `r` of the two gathered arrays. -/
theorem finalScores_apply (c : Dev Cert.KernelIdeal.nD) (r : Fin 602112) :
    finalScores m c (ix2 r (0 : Fin 1))
      = score (w1Arr m c) (b1Arr m c) (w2Arr m c) (b2Arr m c) (fun k => xsArr m c (ix2 r k)) (fun k => hdArr m c (ix2 r k)) := by
  show scores _ _ _ _ _ _ _ = _
  unfold scores rowScore
  rfl

/-- What the kernel program's result buffer holds after the lines that follow the region. -/
theorem kernel_value (hpre : Cert.Pre_KernelIdeal m) (c : Dev Cert.KernelIdeal.nD) :
    (Pipeline.afterTail₀ cfgs (dats m) 0 (V0 m) [hostOps1] c main_v6 : (⟨1, ![600000]⟩ : Shape).Idx → EReal)
      = edgeScores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) := by
  rw [tail_v6, final]
  funext i
  obtain ⟨e, rfl⟩ : ∃ e : Fin 600000, i = ix1 e := ⟨i 0, eq_ix1 i⟩
  refine (tail_apply (F := Ideal) (finalScores m c) e).trans ?_
  refine (finalScores_apply m c _).trans ?_
  rw [funext (xs_row m hpre c e), funext (hd_row m hpre c e),
    show w1Arr m c = _ from V_main_arg1 m c, show b1Arr m c = _ from V_main_arg2 m c,
    show w2Arr m c = _ from V_main_arg3 m c, show b2Arr m c = _ from V_main_arg4 m c]
  rfl

/-- The kernel program's run: the result at the edges' scores, the arguments unchanged. -/
theorem kernel_run (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v6) = edgeScores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun _ h c => ⟨
      ((h c).2 main_v6 (Pipeline.mem_restRefs_of main_v6 (by decide) (by decide))).trans (kernel_value m hpre c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Kernel

/-! ## The reference -/

section Reference
open Cert.ReferenceIdeal Cert.ReferenceIdeal.Gen

variable (m' : (ℓ : Loc Cert.ReferenceIdeal.nD Cert.ReferenceIdeal.τ Cert.ReferenceIdeal.sig) → Buf (Elt Ideal) ℓ)

/-- The reference program's run: the result at the edges' scores, the arguments unchanged. -/
theorem reference_run (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v30) = edgeScores
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono (fun _ h c => ⟨(h c).1.trans (by
      rw [Cert.ReferenceIdeal.Read.val_main_v30_eq]
      funext i
      obtain ⟨e, rfl⟩ : ∃ e : Fin 600000, i = ix1 e := ⟨i 0, eq_ix1 i⟩
      exact Cert.ReferenceIdeal.RefValue.result_apply _ _ _ _ _ _ _ e), (h c).2⟩)
    (Cert.ReferenceIdeal.Value.run (F := Ideal) m' ρ')

end Reference

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with the same scores. -/
theorem algebraic : Cert.algebraic_KernelIdeal_ReferenceIdeal := by
  intro m ρ m' ρ' hpre hagree
  refine ⟨fun c => edgeScores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), kernel_run m ρ hpre, ?_⟩
  refine (θ_run Cert.ReferenceIdeal.defs _ _).mono (fun _ h c => ⟨(h c).1.trans ?_, (h c).2⟩) (reference_run m' ρ')
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
